-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S1x768x768 : Shape := ⟨3, ![1, 768, 768]⟩
abbrev S_ : Shape := ⟨0, ![]⟩

class Facts : Prop where
  bcast_S_S1x768x768 : S_.BroadcastsInDim S1x768x768 (![] : Fin 0 → Fin S1x768x768.rank)
  reducesTo_S1x768x768_S_d0_1_2 : S1x768x768.ReducesTo [0, 1, 2] S_
  h_S_ : 0 < S_.numel

variable [Facts]

def fn {F : FTy → Type} [FloatOps F] (main_arg0 : IVec S1x768x768 32) (main_arg1 : IVec S1x768x768 32) : IVec S_ 1 :=
  let main_c : IVec S_ 32 := constantI S_ 32 0#32
  let main_v0 : IVec S1x768x768 32 := broadcastInDim S1x768x768 ![] bcast_S_S1x768x768 main_c
  let main_v1 : IVec S1x768x768 1 := cmpi .sge main_arg0 main_v0
  let main_c_0 : IVec S_ 1 := constantI S_ 1 1#1
  let main_v2 : IVec S_ 1 := (fun x v => Host.reduce IntOp.andi x v reducesTo_S1x768x768_S_d0_1_2 h_S_) main_v1 main_c_0
  main_v2
-- ==== Kernel.lean ====
abbrev S1x768x768 : Shape := ⟨3, ![1, 768, 768]⟩
abbrev S1x384x768x768 : Shape := ⟨4, ![1, 384, 768, 768]⟩
abbrev S1x12x768x768 : Shape := ⟨4, ![1, 12, 768, 768]⟩
abbrev S768x768 : Shape := ⟨2, ![768, 768]⟩
abbrev S1x1x768x768 : Shape := ⟨4, ![1, 1, 768, 768]⟩

abbrev nBuf : Space → Nat
  | .hbm => 3
  | .vmem => 4
  | .smem => 0
  | _ => 0

abbrev bufTy : (tb : Table) → Fin (tcTables nBuf tb) → BufTy
  | .hbm, ⟨0, _⟩ => ⟨S1x768x768, .i32⟩
  | .hbm, ⟨1, _⟩ => ⟨S1x768x768, .i32⟩
  | .hbm, ⟨2, _⟩ => ⟨S1x384x768x768, .i32⟩
  | .local _ .vmem, ⟨0, _⟩ => ⟨S1x768x768, .i32⟩
  | .local _ .vmem, ⟨1, _⟩ => ⟨S1x768x768, .i32⟩
  | .local _ .vmem, ⟨2, _⟩ => ⟨S1x12x768x768, .i32⟩
  | .local _ .vmem, ⟨3, _⟩ => ⟨S1x12x768x768, .i32⟩
  | _, _ => ⟨S1x768x768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1x768x768 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x768x768 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x12x768x768 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  natLt_1_32 : 1 < 32
  inb_S1x12x768x768_S1x1x768x768_0_0_0_0 : ∀ a, (![0, 0, 0, 0] : Fin 4 → Nat) a + S1x1x768x768.size a ≤ S1x12x768x768.size a
  h_S1x1x768x768 : 0 < S1x1x768x768.numel
  shapeCasts_S1x1x768x768_S768x768 : S1x1x768x768.ShapeCasts S768x768
  shapeCasts_S768x768_S1x1x768x768 : S768x768.ShapeCasts S1x1x768x768
  inb_S1x12x768x768_S1x1x768x768_0_1_0_0 : ∀ a, (![0, 1, 0, 0] : Fin 4 → Nat) a + S1x1x768x768.size a ≤ S1x12x768x768.size a
  inb_S1x12x768x768_S1x1x768x768_0_2_0_0 : ∀ a, (![0, 2, 0, 0] : Fin 4 → Nat) a + S1x1x768x768.size a ≤ S1x12x768x768.size a
  inb_S1x12x768x768_S1x1x768x768_0_3_0_0 : ∀ a, (![0, 3, 0, 0] : Fin 4 → Nat) a + S1x1x768x768.size a ≤ S1x12x768x768.size a
  inb_S1x12x768x768_S1x1x768x768_0_4_0_0 : ∀ a, (![0, 4, 0, 0] : Fin 4 → Nat) a + S1x1x768x768.size a ≤ S1x12x768x768.size a
  inb_S1x12x768x768_S1x1x768x768_0_5_0_0 : ∀ a, (![0, 5, 0, 0] : Fin 4 → Nat) a + S1x1x768x768.size a ≤ S1x12x768x768.size a
  inb_S1x12x768x768_S1x1x768x768_0_6_0_0 : ∀ a, (![0, 6, 0, 0] : Fin 4 → Nat) a + S1x1x768x768.size a ≤ S1x12x768x768.size a
  inb_S1x12x768x768_S1x1x768x768_0_7_0_0 : ∀ a, (![0, 7, 0, 0] : Fin 4 → Nat) a + S1x1x768x768.size a ≤ S1x12x768x768.size a
  inb_S1x12x768x768_S1x1x768x768_0_8_0_0 : ∀ a, (![0, 8, 0, 0] : Fin 4 → Nat) a + S1x1x768x768.size a ≤ S1x12x768x768.size a
  inb_S1x12x768x768_S1x1x768x768_0_9_0_0 : ∀ a, (![0, 9, 0, 0] : Fin 4 → Nat) a + S1x1x768x768.size a ≤ S1x12x768x768.size a
  inb_S1x12x768x768_S1x1x768x768_0_10_0_0 : ∀ a, (![0, 10, 0, 0] : Fin 4 → Nat) a + S1x1x768x768.size a ≤ S1x12x768x768.size a
  inb_S1x12x768x768_S1x1x768x768_0_11_0_0 : ∀ a, (![0, 11, 0, 0] : Fin 4 → Nat) a + S1x1x768x768.size a ≤ S1x12x768x768.size a
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x768x768.size a ≤ S1x768x768.size a
  hwx0_0 : ∀ i : grid0.Coords, EltTy.bits .i32 = 32 ∨ (Rect.block (s := S1x768x768) S1x768x768.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768x768.size a ≤ S1x768x768.size a
  hwx0_1 : ∀ i : grid0.Coords, EltTy.bits .i32 = 32 ∨ (Rect.block (s := S1x768x768) S1x768x768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x12x768x768.size a ≤ S1x384x768x768.size a
  hwx0_2 : ∀ i : grid0.Coords, EltTy.bits .i32 = 32 ∨ (Rect.block (s := S1x384x768x768) S1x12x768x768.size (cc0_transform_2 i) (hinb0_2 i)).WholeWords (EltTy.packing .i32)

variable [Facts₀]

abbrev win0_0 : Pipeline.Window sig grid0 :=
  Pipeline.Window.ofSpec (Memref.whole main_arg0) S1x768x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x12x768x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x768x768 : Shape := ⟨3, ![1, 768, 768]⟩
abbrev S384 : Shape := ⟨1, ![384]⟩
abbrev S1x384x1x1 : Shape := ⟨4, ![1, 384, 1, 1]⟩
abbrev S1x1x768x768 : Shape := ⟨4, ![1, 1, 768, 768]⟩
abbrev S_ : Shape := ⟨0, ![]⟩
abbrev S1x384x768x768 : Shape := ⟨4, ![1, 384, 768, 768]⟩

abbrev nBuf : Space → Nat
  | .hbm => 44
  | .vmem => 0
  | .smem => 0
  | _ => 0

abbrev bufTy : (tb : Table) → Fin (tcTables nBuf tb) → BufTy
  | .hbm, ⟨0, _⟩ => ⟨S1x768x768, .i32⟩
  | .hbm, ⟨1, _⟩ => ⟨S1x768x768, .i32⟩
  | .hbm, ⟨2, _⟩ => ⟨S384, .i32⟩
  | .hbm, ⟨3, _⟩ => ⟨S1x384x1x1, .i32⟩
  | .hbm, ⟨4, _⟩ => ⟨S1x1x768x768, .i32⟩
  | .hbm, ⟨5, _⟩ => ⟨S1x1x768x768, .i32⟩
  | .hbm, ⟨6, _⟩ => ⟨S_, .i32⟩
  | .hbm, ⟨7, _⟩ => ⟨S1x1x768x768, .i32⟩
  | .hbm, ⟨8, _⟩ => ⟨S1x1x768x768, .i1⟩
  | .hbm, ⟨9, _⟩ => ⟨S_, .i32⟩
  | .hbm, ⟨10, _⟩ => ⟨S1x1x768x768, .i32⟩
  | .hbm, ⟨11, _⟩ => ⟨S1x1x768x768, .i1⟩
  | .hbm, ⟨12, _⟩ => ⟨S1x1x768x768, .i1⟩
  | .hbm, ⟨13, _⟩ => ⟨S_, .i32⟩
  | .hbm, ⟨14, _⟩ => ⟨S1x384x1x1, .i32⟩
  | .hbm, ⟨15, _⟩ => ⟨S1x384x1x1, .i1⟩
  | .hbm, ⟨16, _⟩ => ⟨S_, .i32⟩
  | .hbm, ⟨17, _⟩ => ⟨S1x1x768x768, .i32⟩
  | .hbm, ⟨18, _⟩ => ⟨S1x1x768x768, .i32⟩
  | .hbm, ⟨19, _⟩ => ⟨S_, .i32⟩
  | .hbm, ⟨20, _⟩ => ⟨S1x1x768x768, .i32⟩
  | .hbm, ⟨21, _⟩ => ⟨S1x1x768x768, .i32⟩
  | .hbm, ⟨22, _⟩ => ⟨S1x384x768x768, .i32⟩
  | .hbm, ⟨23, _⟩ => ⟨S1x384x768x768, .i32⟩
  | .hbm, ⟨24, _⟩ => ⟨S1x384x768x768, .i1⟩
  | .hbm, ⟨25, _⟩ => ⟨S_, .i32⟩
  | .hbm, ⟨26, _⟩ => ⟨S1x1x768x768, .i32⟩
  | .hbm, ⟨27, _⟩ => ⟨S1x1x768x768, .i32⟩
  | .hbm, ⟨28, _⟩ => ⟨S1x384x768x768, .i32⟩
  | .hbm, ⟨29, _⟩ => ⟨S1x384x768x768, .i32⟩
  | .hbm, ⟨30, _⟩ => ⟨S1x384x768x768, .i32⟩
  | .hbm, ⟨31, _⟩ => ⟨S1x384x768x768, .i1⟩
  | .hbm, ⟨32, _⟩ => ⟨S1x384x768x768, .i32⟩
  | .hbm, ⟨33, _⟩ => ⟨S1x384x768x768, .i32⟩
  | .hbm, ⟨34, _⟩ => ⟨S1x384x768x768, .i32⟩
  | .hbm, ⟨35, _⟩ => ⟨S1x384x768x768, .i32⟩
  | .hbm, ⟨36, _⟩ => ⟨S1x384x768x768, .i1⟩
  | .hbm, ⟨37, _⟩ => ⟨S1x384x768x768, .i1⟩
  | .hbm, ⟨38, _⟩ => ⟨S1x384x768x768, .i32⟩
  | .hbm, ⟨39, _⟩ => ⟨S1x384x768x768, .i32⟩
  | .hbm, ⟨40, _⟩ => ⟨S_, .i32⟩
  | .hbm, ⟨41, _⟩ => ⟨S_, .i32⟩
  | .hbm, ⟨42, _⟩ => ⟨S1x384x768x768, .i32⟩
  | .hbm, ⟨43, _⟩ => ⟨S1x384x768x768, .i32⟩
  | _, _ => ⟨S1x768x768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_call1_v0 : Ref sig .tc := ⟨.hbm, 31, rfl⟩
abbrev main_call1_v1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call2_v0 : Ref sig .tc := ⟨.hbm, 37, rfl⟩
abbrev main_call2_v1 : Ref sig .tc := ⟨.hbm, 38, rfl⟩
abbrev main_v25 : Ref sig .tc := ⟨.hbm, 39, rfl⟩
abbrev main_c_5 : Ref sig .tc := ⟨.hbm, 40, rfl⟩
abbrev main_call3_v0 : Ref sig .tc := ⟨.hbm, 41, rfl⟩
abbrev main_call3_v1 : Ref sig .tc := ⟨.hbm, 42, rfl⟩
abbrev main_v26 : Ref sig .tc := ⟨.hbm, 43, rfl⟩

abbrev nD : Nat := 1
abbrev τ : Topo := Topo.v7x

variable {F : FTy → Type} [FloatOps F]

class Facts₀ : Prop where
  bcast_S384_S1x384x1x1_1 : S384.BroadcastsInDim S1x384x1x1 (![1] : Fin 1 → Fin S1x384x1x1.rank)
  bcast_S1x768x768_S1x1x768x768_0_2_3 : S1x768x768.BroadcastsInDim S1x1x768x768 (![0, 2, 3] : Fin 3 → Fin S1x1x768x768.rank)
  bcast_S_S1x1x768x768 : S_.BroadcastsInDim S1x1x768x768 (![] : Fin 0 → Fin S1x1x768x768.rank)
  bcast_S_S1x384x1x1 : S_.BroadcastsInDim S1x384x1x1 (![] : Fin 0 → Fin S1x384x1x1.rank)
  bcast_S1x384x1x1_S1x384x768x768_0_1_2_3 : S1x384x1x1.BroadcastsInDim S1x384x768x768 (![0, 1, 2, 3] : Fin 4 → Fin S1x384x768x768.rank)
  bcast_S1x1x768x768_S1x384x768x768_0_1_2_3 : S1x1x768x768.BroadcastsInDim S1x384x768x768 (![0, 1, 2, 3] : Fin 4 → Fin S1x384x768x768.rank)
  bcast_S_S1x384x768x768 : S_.BroadcastsInDim S1x384x768x768 (![] : Fin 0 → Fin S1x384x768x768.rank)

variable [Facts₀]

class Facts : Prop extends Facts₀ where

variable [Facts]
-- ==== Proof.Spec.lean ====
/-
  The mathematics of the extrusion, one voxel at a time, over 32-bit two's-complement words.

  A column of the height map has a height `h` and an id `s`. The voxel at layer `z` (0 ≤ z < 384) is empty (0) when `z ≥ h`;
  below the height it is the id, and for a footprint id (100 ≤ s < 5000) the topmost layer `z ≥ h - 1` carries `s + 1`.
  The reference decides this from `z` and `h` directly (`rvox`). The kernel works on a tile of 12 layers starting at layer
  `d0 = 12·d`: it moves the tile's offset into the thresholds, comparing the row `zz` of the tile with `h - d0` and `h - d0 - 1`,
  and adds the footprint test itself (0 or 1) to the id under the roof test (`kvox`).

  The two agree when the subtractions `h - d0` and `h - d0 - 1` do not wrap around, which a non-negative height guarantees
  (`d0 ≤ 372`): then `zz < h - d0 ↔ d0 + zz < h` and `h - d0 - 1 ≤ zz ↔ d0 + zz ≥ h - 1` as integers, the reference's branch
  `z < 0` is never taken, and `s + 1` or `s + 0` is the reference's choice by the footprint test. For a height within 372 of the
  least word the kernel's `h - d0` wraps to a large positive word and the two differ: the hypothesis is needed.
-/
import Idealize.ShloMosaic.PureOps
import Idealize.ShloMosaic.Lib.ValueIdx

namespace Cert.Extrude

open Idealize.ShloMosaic

/-- The footprint test: `100 ≤ s < 5000`, signed, as a one-bit word. -/
def isFp (s : BitVec 32) : BitVec 1 := IntOp.andi (IntOp.cmpi .sge s 100#32) (IntOp.cmpi .slt s 5000#32)

/-- The kernel's voxel: row `zz` of the tile that starts at layer `d0`, from the column's height `h` and id `s`. -/
def kvox (d0 zz h s : BitVec 32) : BitVec 32 :=
  Scalar.select (IntOp.cmpi .sgt (IntOp.subi h d0) zz)
    (Scalar.select (IntOp.cmpi .sle (IntOp.subi (IntOp.subi h d0) 1#32) zz) (IntOp.addi s ((isFp s).setWidth 32)) s)
    0#32

/-- The reference's voxel at layer `z`, from the column's height `h` and id `s`. -/
def rvox (z h s : BitVec 32) : BitVec 32 :=
  Scalar.select (IntOp.cmpi .slt z h)
    (Scalar.select (isFp s)
      (Scalar.select (IntOp.cmpi .slt z 0#32) (IntOp.addi s 0#32)
        (Scalar.select (IntOp.cmpi .sge z (IntOp.subi h 1#32)) (IntOp.addi s 1#32) s))
      s)
    0#32

/-- A one-bit word is 0 or 1. -/
theorem bit_cases (b : BitVec 1) : b = 0#1 ∨ b = 1#1 := by
  revert b; decide

/-- A selection on a Boolean's bit is the Boolean's choice. -/
theorem select_ofBool {α : Type} (p : Bool) (a b : α) : Scalar.select (BitVec.ofBool p) a b = if p then a else b := by
  cases p <;> rfl

/-- The signed value of a word, by its sign bit. -/
theorem toInt_cases (x : BitVec 32) :
    (2 * x.toNat < 4294967296 ∧ x.toInt = (x.toNat : Int)) ∨ (4294967296 ≤ 2 * x.toNat ∧ x.toInt = (x.toNat : Int) - 4294967296) := by
  rw [BitVec.toInt_eq_toNat_cond]
  by_cases hx : 2 * x.toNat < 2 ^ 32
  · left; rw [if_pos hx]; exact ⟨by omega, rfl⟩
  · right; rw [if_neg hx]; exact ⟨by omega, by omega⟩

/-- Row `zz` of tile `d` is layer `12·d + zz`: for a non-negative height the kernel's voxel is the reference's. -/
theorem kvox_eq_rvox (d zz : Nat) (hd : d < 32) (hzz : zz < 12) (h s : BitVec 32) (hh : (0#32).sle h = true) :
    kvox (Scalar.muli (BitVec.ofNat 32 d) 12#32) (BitVec.ofNat 32 zz) h s = rvox (BitVec.ofNat 32 (d * 12 + zz)) h s := by
  -- the words involved, as natural numbers
  have hH : (0 : Int) ≤ h.toInt := by
    have := hh
    simp only [BitVec.sle, decide_eq_true_eq] at this
    simpa using this
  have hd0 : (Scalar.muli (BitVec.ofNat 32 d) 12#32).toNat = d * 12 := by
    show (BitVec.ofNat 32 d * 12#32).toNat = _
    rw [BitVec.toNat_mul, BitVec.toNat_ofNat, BitVec.toNat_ofNat]; omega
  generalize Scalar.muli (BitVec.ofNat 32 d) 12#32 = d0 at hd0 ⊢
  have hzv : (BitVec.ofNat 32 zz).toNat = zz := by rw [BitVec.toNat_ofNat]; omega
  have hz : (BitVec.ofNat 32 (d * 12 + zz)).toNat = d * 12 + zz := by rw [BitVec.toNat_ofNat]; omega
  generalize BitVec.ofNat 32 zz = zv at hzv ⊢
  generalize BitVec.ofNat 32 (d * 12 + zz) = z at hz ⊢
  have ha : (h - d0).toNat = (4294967296 - d0.toNat + h.toNat) % 4294967296 := by rw [BitVec.toNat_sub]
  have hb : (h - d0 - 1#32).toNat = (4294967296 - 1 + (h - d0).toNat) % 4294967296 := by rw [BitVec.toNat_sub]; rfl
  have hh1 : (h - 1#32).toNat = (4294967296 - 1 + h.toNat) % 4294967296 := by rw [BitVec.toNat_sub]; rfl
  have h0 : (0#32).toInt = 0 := by decide
  -- the three tests agree
  have e1 : zv.slt (h - d0) = z.slt h := by
    simp only [BitVec.slt]
    apply decide_eq_decide.mpr
    rcases toInt_cases zv with ⟨_, q1⟩ | ⟨_, q1⟩ <;> rcases toInt_cases (h - d0) with ⟨_, q2⟩ | ⟨_, q2⟩ <;>
      rcases toInt_cases z with ⟨_, q3⟩ | ⟨_, q3⟩ <;> rcases toInt_cases h with ⟨_, q4⟩ | ⟨_, q4⟩ <;> omega
  have e2 : (h - d0 - 1#32).sle zv = (h - 1#32).sle z := by
    simp only [BitVec.sle]
    apply decide_eq_decide.mpr
    rcases toInt_cases zv with ⟨_, q1⟩ | ⟨_, q1⟩ <;> rcases toInt_cases (h - d0) with ⟨_, q2⟩ | ⟨_, q2⟩ <;>
      rcases toInt_cases (h - d0 - 1#32) with ⟨_, q5⟩ | ⟨_, q5⟩ <;> rcases toInt_cases (h - 1#32) with ⟨_, q6⟩ | ⟨_, q6⟩ <;>
      rcases toInt_cases z with ⟨_, q3⟩ | ⟨_, q3⟩ <;> rcases toInt_cases h with ⟨_, q4⟩ | ⟨_, q4⟩ <;> omega
  have e3 : z.slt 0#32 = false := by
    simp only [BitVec.slt, h0]
    apply decide_eq_false
    rcases toInt_cases z with ⟨_, q3⟩ | ⟨_, q3⟩ <;> omega
  unfold kvox rvox
  simp only [IntOp.cmpi, IntOp.subi, IntOp.addi, select_ofBool, e1, e2, e3]
  rcases bit_cases (isFp s) with hf | hf <;> rw [hf]
  · -- not a footprint id: `s + 0` under the roof test, `s` otherwise: `s` either way
    have : Scalar.select (0#1) (if false = true then s + 0#32 else if (h - 1#32).sle z = true then s + 1#32 else s) s = s := rfl
    rw [this]
    have hs : s + BitVec.setWidth 32 (0#1) = s := by
      show s + 0#32 = s; exact BitVec.add_zero s
    rw [hs]; split <;> simp
  · -- a footprint id: the bit widens to 1
    have : ∀ x : BitVec 32, Scalar.select (1#1) x s = x := fun _ => rfl
    rw [this]
    have hs : s + BitVec.setWidth 32 (1#1) = s + 1#32 := rfl
    rw [hs]; simp

/-! ## The volume -/

/-- The column of a voxel: its batch entry (the one there is) and its two plane coordinates. -/
def col (j : (⟨4, ![1, 384, 768, 768]⟩ : Shape).Idx) : (⟨3, ![1, 768, 768]⟩ : Shape).Idx :=
  ValueIdx.ix3 (0 : Fin 1) (⟨(j 2).val, (j 2).isLt⟩ : Fin 768) (⟨(j 3).val, (j 3).isLt⟩ : Fin 768)

/-- The extruded volume of a height map and an id map: at layer `z` of a column, the reference's voxel. -/
def vol (hf seg : (⟨3, ![1, 768, 768]⟩ : Shape).Idx → BitVec 32) : (⟨4, ![1, 384, 768, 768]⟩ : Shape).Idx → BitVec 32 :=
  fun j => rvox (BitVec.ofNat 32 (j 1).val) (hf (col j)) (seg (col j))

end Cert.Extrude
-- ==== Proof.KernelValue.lean ====
/-
  What the idealized kernel leaves in the output volume, as one function of the two input maps.

  At grid point `(b, d)` the body reads the whole height map and id map (their one batch) and stores 12 rows, row `zz` of the
  output tile being, column by column, the voxel `kvox (12·d) zz h s` of Spec.lean. Each store's value is a shape cast of a
  pointwise expression of the two maps, so read at an index it is that scalar expression of the column's height and id
  (`row_at`, `col_*`); the twelve rows are the tile `tile` restricted to their rectangles, so the buffer after the body is `tile`
  (`block_eq`). Tile `d` lands at layers `12·d … 12·d + 11` of the volume, the tiles cover it, and for non-negative heights
  `kvox (12·d) zz = rvox (12·d + zz)` (Spec.lean): the volume ends holding `vol`, the reference's voxel at every index.
-/
import proofs.«429698_j91216515432457_3_alg».proof.Proof.KernelIdealValueP
import proofs.«429698_j91216515432457_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Volume

open Cert.KernelIdeal Cert.KernelIdeal.Gen Cert.KernelIdeal.GenP Cert.KernelIdeal.ValueP
open Idealize.ShloMosaic Idealize.ShloMosaic.TcCoe Idealize.SL.Sem Idealize.ShloMosaic.ValueIdx
open Idealize.ShloMosaic.Pipeline (Dat)
open Cert.Extrude

variable {F : FTy → Type} [FloatOps F]

/-! ## One stored row, read at an index -/

/-- A `[768, 768]` plane stored as a `[1, 1, 768, 768]` row reads, at `(u, w, p, q)`, the plane at `(p, q)`. -/
theorem plane_as_row (v : IVec S768x768 32) (h : S768x768.ShapeCasts S1x1x768x768) (u w : Fin 1) (p q : Fin 768) :
    shapeCast S1x1x768x768 v h (ix4 u w p q) = v (ix2 p q) :=
  shapeCast_apply v h _ _ (by
    have hu : u.val = 0 := by omega
    have hw : w.val = 0 := by omega
    rw [Shape.rowMajor_val_two, Shape.rowMajor_val_four]
    show p.val * 768 + q.val = ((u.val * 1 + w.val) * 768 + p.val) * 768 + q.val
    rw [hu, hw]; omega)

/-- The value every row stores, for the row's number `k`: empty above the (shifted) height, the roof value at the roof,
    the id below it. -/
def rowv (k : BitVec 32) (ids lo roof roofval : IVec S768x768 32) (h : S768x768.ShapeCasts S1x1x768x768) : IVec S1x1x768x768 32 :=
  shapeCast S1x1x768x768 (select (cmpi .sgt lo (broadcast S768x768 k)) (select (cmpi .sle roof (broadcast S768x768 k)) roofval ids) (broadcast S768x768 0#32)) h

theorem row_at (k : BitVec 32) (ids lo roof roofval : IVec S768x768 32) (h : S768x768.ShapeCasts S1x1x768x768) (u w : Fin 1) (p q : Fin 768) :
    rowv k ids lo roof roofval h (ix4 u w p q)
      = Scalar.select (IntOp.cmpi .sgt (lo (ix2 p q)) k) (Scalar.select (IntOp.cmpi .sle (roof (ix2 p q)) k) (roofval (ix2 p q)) (ids (ix2 p q))) 0#32 := by
  unfold rowv
  rw [plane_as_row]; rfl

/-! ## The quantities the rows share, at a column -/

/-- The ids, as a plane. -/
theorem col_ids (x1 : Vec F S1x768x768 .i32) (p q : Fin 768) : k0_pay2 x1 (ix2 p q) = x1 (ix3 (0 : Fin 1) p q) := by
  unfold k0_pay2
  exact shapeCast_1ab_ab_apply _ _ p q

/-- The height less the tile's first layer. -/
theorem col_lo (i : grid0.Coords) (x0 : Vec F S1x768x768 .i32) (p q : Fin 768) :
    k0_pay3 i x0 (ix2 p q) = IntOp.subi (x0 (ix3 (0 : Fin 1) p q)) (Scalar.muli (BitVec.ofNat 32 (i 1).val) 12#32) := by
  unfold k0_pay3
  show IntOp.subi (shapeCast S768x768 x0 _ (ix2 p q)) _ = _
  rw [shapeCast_1ab_ab_apply]; rfl

/-- That less one: the roof's threshold. -/
theorem col_roof (i : grid0.Coords) (x0 : Vec F S1x768x768 .i32) (p q : Fin 768) :
    k0_pay4 i x0 (ix2 p q) = IntOp.subi (IntOp.subi (x0 (ix3 (0 : Fin 1) p q)) (Scalar.muli (BitVec.ofNat 32 (i 1).val) 12#32)) 1#32 := by
  unfold k0_pay4
  show IntOp.subi (k0_pay3 i x0 (ix2 p q)) _ = _
  rw [col_lo]; rfl

/-- The id plus its footprint test. -/
theorem col_roofval (x1 : Vec F S1x768x768 .i32) (p q : Fin 768) :
    k0_pay5 x1 (ix2 p q) = IntOp.addi (x1 (ix3 (0 : Fin 1) p q)) ((isFp (x1 (ix3 (0 : Fin 1) p q))).setWidth 32) := by
  unfold k0_pay5
  show IntOp.addi (k0_pay2 x1 (ix2 p q)) ((IntOp.andi (IntOp.cmpi .sge (k0_pay2 x1 (ix2 p q)) 100#32) (IntOp.cmpi .slt (k0_pay2 x1 (ix2 p q)) 5000#32)).setWidth 32) = _
  rw [col_ids]; rfl

/-! ## The tile -/

/-- The output tile of grid point `i`, from the two maps: row `zz`, column `(p, q)` is the kernel's voxel. -/
def tile (i : grid0.Coords) (x0 x1 : Vec F S1x768x768 .i32) : IVec S1x12x768x768 32 := fun y =>
  kvox (Scalar.muli (BitVec.ofNat 32 (i 1).val) 12#32) (BitVec.ofNat 32 (y 1).val)
    (x0 (ix3 (0 : Fin 1) (⟨(y 2).val, (y 2).isLt⟩ : Fin 768) (⟨(y 3).val, (y 3).isLt⟩ : Fin 768)))
    (x1 (ix3 (0 : Fin 1) (⟨(y 2).val, (y 2).isLt⟩ : Fin 768) (⟨(y 3).val, (y 3).isLt⟩ : Fin 768)))

theorem tile_at (i : grid0.Coords) (x0 x1 : Vec F S1x768x768 .i32) (y : S1x12x768x768.Idx) (k : Nat) (p q : Fin 768)
    (h1 : (y 1).val = k) (h2 : (y 2).val = p.val) (h3 : (y 3).val = q.val) :
    tile i x0 x1 y = kvox (Scalar.muli (BitVec.ofNat 32 (i 1).val) 12#32) (BitVec.ofNat 32 k) (x0 (ix3 (0 : Fin 1) p q)) (x1 (ix3 (0 : Fin 1) p q)) := by
  unfold tile
  have e2 : (⟨(y 2).val, (y 2).isLt⟩ : Fin 768) = p := Fin.ext h2
  have e3 : (⟨(y 3).val, (y 3).isLt⟩ : Fin 768) = q := Fin.ext h3
  rw [h1, e2, e3]

/-- Row `k`'s store is the tile on the row's rectangle. -/
theorem piece_at (i : grid0.Coords) (x0 x1 : Vec F S1x768x768 .i32) (h : S768x768.ShapeCasts S1x1x768x768) (k : Nat)
    (inb : ∀ a, (![0, k, 0, 0] : Fin 4 → Nat) a + S1x1x768x768.size a ≤ S1x12x768x768.size a)
    (x : (Rect.unit (s := S1x12x768x768) ![0, k, 0, 0] S1x1x768x768.size inb).shape.Idx) :
    rowv (BitVec.ofNat 32 k) (k0_pay2 x1) (k0_pay3 i x0) (k0_pay4 i x0) (k0_pay5 x1) h x
      = tile i x0 x1 ((Rect.unit (s := S1x12x768x768) ![0, k, 0, 0] S1x1x768x768.size inb).emb x) := by
  obtain ⟨u, w, p, q, rfl⟩ : ∃ (u w : Fin 1) (p q : Fin 768), x = ix4 u w p q := ⟨x 0, x 1, x 2, x 3, eq_ix4 x⟩
  have hw : w.val = 0 := by omega
  rw [tile_at i x0 x1 _ k p q (by show k + 1 * w.val = k; omega) (by show 0 + 1 * p.val = p.val; omega) (by show 0 + 1 * q.val = q.val; omega)]
  rw [row_at, col_lo, col_roof, col_ids, col_roofval]
  rfl

/-! ## The buffer after the body is the tile -/

theorem hz3 : (![0, 0, 0] : Fin 3 → Nat) = fun _ => 0 := funext fun a => by fin_cases a <;> rfl

/-- The twelve stores, last first, are the tile's twelve rows: the buffer after the body is the tile. -/
theorem block_eq (i : grid0.Coords) (x0 x1 : Vec F S1x768x768 .i32) : out0_2 i x0 x1 = tile i x0 x1 := by
  funext y
  unfold out0_2
  simp only [View.ld_unit_zero (S := S1x768x768) hz3]
  refine View.canon_apply_of_pieces (tile i x0 x1) _ ?_ y (cover0_2 (F := F) _ _ _ _ _ _ _ _ _ _ _ _ y)
  intro pc hpc
  simp only [List.mem_cons, List.not_mem_nil, or_false] at hpc
  rcases hpc with rfl | rfl | rfl | rfl | rfl | rfl | rfl | rfl | rfl | rfl | rfl | rfl
  · exact fun x => piece_at i x0 x1 shapeCasts_S768x768_S1x1x768x768 11 inb_S1x12x768x768_S1x1x768x768_0_11_0_0 x
  · exact fun x => piece_at i x0 x1 shapeCasts_S768x768_S1x1x768x768 10 inb_S1x12x768x768_S1x1x768x768_0_10_0_0 x
  · exact fun x => piece_at i x0 x1 shapeCasts_S768x768_S1x1x768x768 9 inb_S1x12x768x768_S1x1x768x768_0_9_0_0 x
  · exact fun x => piece_at i x0 x1 shapeCasts_S768x768_S1x1x768x768 8 inb_S1x12x768x768_S1x1x768x768_0_8_0_0 x
  · exact fun x => piece_at i x0 x1 shapeCasts_S768x768_S1x1x768x768 7 inb_S1x12x768x768_S1x1x768x768_0_7_0_0 x
  · exact fun x => piece_at i x0 x1 shapeCasts_S768x768_S1x1x768x768 6 inb_S1x12x768x768_S1x1x768x768_0_6_0_0 x
  · exact fun x => piece_at i x0 x1 shapeCasts_S768x768_S1x1x768x768 5 inb_S1x12x768x768_S1x1x768x768_0_5_0_0 x
  · exact fun x => piece_at i x0 x1 shapeCasts_S768x768_S1x1x768x768 4 inb_S1x12x768x768_S1x1x768x768_0_4_0_0 x
  · exact fun x => piece_at i x0 x1 shapeCasts_S768x768_S1x1x768x768 3 inb_S1x12x768x768_S1x1x768x768_0_3_0_0 x
  · exact fun x => piece_at i x0 x1 shapeCasts_S768x768_S1x1x768x768 2 inb_S1x12x768x768_S1x1x768x768_0_2_0_0 x
  · exact fun x => piece_at i x0 x1 shapeCasts_S768x768_S1x1x768x768 1 inb_S1x12x768x768_S1x1x768x768_0_1_0_0 x
  · exact fun x => piece_at i x0 x1 shapeCasts_S768x768_S1x1x768x768 0 inb_S1x12x768x768_S1x1x768x768_0_0_0_0 x

/-! ## From the tiles to the volume -/

variable (m : (ℓ : Loc nD τ sig) → Buf (Elt F) ℓ) (ρ : Dev nD → PrngReg)

/-- The printed index maps, decided over the 32 grid points: both maps are staged whole (block 0 on every axis), and the
    output's block at point `t` is tile `d` of the layer axis, `d` the point's second coordinate, below 32. -/
theorem idx_facts : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 4) = 0 ∧ win0_2.index t (1 : Fin 4) = (grid0.coords t (1 : Fin 2)).val
    ∧ win0_2.index t (2 : Fin 4) = 0 ∧ win0_2.index t (3 : Fin 4) = 0 ∧ (grid0.coords t (1 : Fin 2)).val < 32 :=
  (by decide +kernel : ∀ t : Fin grid0.N, _)

/-- Every tile of the layer axis is some point's. -/
theorem idx_onto : ∀ q : Fin 32, ∃ t : Fin cfg0.N, win0_2.index t = ![0, q.val, 0, 0] :=
  (by decide +kernel : ∀ q : Fin 32, ∃ t : Fin grid0.N, win0_2.index t = ![0, q.val, 0, 0])

/-- WHAT POINT `t` WRITES BACK is block `t` of the volume of the two maps, when no height is negative: the tile's row `zz` is
    layer `12·d + zz`, where the kernel's voxel is the reference's. -/
theorem flushed_eq (c : Dev nD) (hpos : ∀ y, (0#32).sle (V m c main_arg0 y) = true) (t : Fin cfg0.N) :
    (dats m 0 c).flushed 2 t = ((cfg0.win 2).blk t).view.read (Elt F) (vol (V m c main_arg0) (V m c main_arg1)) := by
  rw [flushed2, block_eq]
  obtain ⟨a0, a1, a2, b0, b1, b2, o0, o1, o2, o3, hd⟩ := idx_facts t
  have hin0 : ∀ y : S1x768x768.Idx, iblk m c 0 t y = V m c main_arg0 y := by
    intro y
    show V m c main_arg0 (((cfg0.win 0).blk t).view.emb y) = V m c main_arg0 y
    refine congrArg _ ?_
    funext a; apply Fin.ext
    match a with
    | ⟨0, _⟩ => show win0_0.index t (0 : Fin 3) * 1 + 1 * (y 0).val = (y 0).val; omega
    | ⟨1, _⟩ => show win0_0.index t (1 : Fin 3) * 768 + 1 * (y 1).val = (y 1).val; omega
    | ⟨2, _⟩ => show win0_0.index t (2 : Fin 3) * 768 + 1 * (y 2).val = (y 2).val; omega
  have hin1 : ∀ y : S1x768x768.Idx, iblk m c 1 t y = V m c main_arg1 y := by
    intro y
    show V m c main_arg1 (((cfg0.win 1).blk t).view.emb y) = V m c main_arg1 y
    refine congrArg _ ?_
    funext a; apply Fin.ext
    match a with
    | ⟨0, _⟩ => show win0_1.index t (0 : Fin 3) * 1 + 1 * (y 0).val = (y 0).val; omega
    | ⟨1, _⟩ => show win0_1.index t (1 : Fin 3) * 768 + 1 * (y 1).val = (y 1).val; omega
    | ⟨2, _⟩ => show win0_1.index t (2 : Fin 3) * 768 + 1 * (y 2).val = (y 2).val; omega
  funext j
  show tile (grid0.coords t) (iblk m c 0 t) (iblk m c 1 t) j
    = vol (V m c main_arg0) (V m c main_arg1) (((cfg0.win 2).blk t).view.emb j)
  have hzz : (j 1).val < 12 := (j 1).isLt
  have hc : col (((cfg0.win 2).blk t).view.emb j)
      = ix3 (0 : Fin 1) (⟨(j 2).val, (j 2).isLt⟩ : Fin 768) (⟨(j 3).val, (j 3).isLt⟩ : Fin 768) := by
    unfold col
    funext a; apply Fin.ext
    match a with
    | ⟨0, _⟩ => rfl
    | ⟨1, _⟩ => show win0_2.index t (2 : Fin 4) * 768 + 1 * (j 2).val = (j 2).val; omega
    | ⟨2, _⟩ => show win0_2.index t (3 : Fin 4) * 768 + 1 * (j 3).val = (j 3).val; omega
  have hz : ((((cfg0.win 2).blk t).view.emb j) 1).val = (grid0.coords t (1 : Fin 2)).val * 12 + (j 1).val := by
    show win0_2.index t (1 : Fin 4) * 12 + 1 * (j 1).val = _; omega
  unfold tile vol
  rw [hin0, hin1, hc, hz]
  exact kvox_eq_rvox _ _ hd hzz _ _ (hpos _)

/-- An index of the volume is in point `t`'s block iff each coordinate is in the block's range on its axis. -/
theorem mem_blk (t : Fin cfg0.N) (i : S1x384x768x768.Idx) :
    i ∈ ((cfg0.win 2).blk t).view.set ↔ ∀ a : Fin 4, win0_2.index t a * S1x12x768x768.size a ≤ (i a).val ∧ (i a).val < win0_2.index t a * S1x12x768x768.size a + S1x12x768x768.size a := by
  show i ∈ ((View.whole main_v0).slice (win0_2.rect t)).set ↔ _
  rw [View.set_slice_whole, Rect.mem_set_unit]
  exact Iff.rfl

/-- The tiles cover the volume: layer `z` is in tile `z / 12`. -/
theorem cover (i : S1x384x768x768.Idx) : ∃ t : Fin cfg0.N, (cfg0.win 2).flush t = true ∧ i ∈ ((cfg0.win 2).blk t).view.set := by
  have hi0 : (i 0).val < 1 := (i 0).isLt
  have hi1 : (i 1).val < 384 := (i 1).isLt
  have hi2 : (i 2).val < 768 := (i 2).isLt
  have hi3 : (i 3).val < 768 := (i 3).isLt
  obtain ⟨t, ht⟩ := idx_onto ⟨(i 1).val / 12, by omega⟩
  have q0 : win0_2.index t (0 : Fin 4) = 0 := congrFun ht 0
  have q1 : win0_2.index t (1 : Fin 4) = (i 1).val / 12 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 12 ≤ (i 1).val ∧ (i 1).val < win0_2.index t (1 : Fin 4) * 12 + 12; omega
  | ⟨2, _⟩ => show win0_2.index t (2 : Fin 4) * 768 ≤ (i 2).val ∧ (i 2).val < win0_2.index t (2 : Fin 4) * 768 + 768; omega
  | ⟨3, _⟩ => show win0_2.index t (3 : Fin 4) * 768 ≤ (i 3).val ∧ (i 3).val < win0_2.index t (3 : Fin 4) * 768 + 768; omega

/-- THE VOLUME after the run, when no height is negative: the reference's voxel at every index. -/
theorem final (c : Dev nD) (hpos : ∀ y, (0#32).sle (m ((c : Thread nD τ).loc main_arg0) y) = true) :
    (dats m 0 c).arrAt 2 cfg0.N = vol (m ((c : Thread nD τ).loc main_arg0)) (m ((c : Thread nD τ).loc main_arg1)) :=
  (dats m 0 c).arrAt_eq_of_cover 2 (vol (V m c main_arg0) (V m c main_arg1)) (fun t _ => flushed_eq m c hpos t) cover

/-- The kernel's run, read: the result is the volume of the two maps, the maps unchanged. -/
theorem run (hpos : ∀ (c : Dev nD) y, (0#32).sle (m ((c : Thread nD τ).loc main_arg0) y) = true) :
    θ_run defs (onTc (τ := τ) (main (F := F))) ⟨m, fun _ => 0, ρ⟩ fun r => ∀ c : Dev nD,
      r.2.mem ((c : Thread nD τ).loc main_v0) = vol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hpos c)), (h c).2⟩) (run_blocks m ρ)

end Cert.KernelIdeal.Volume

end
-- ==== Proof.RefValue.lean ====
/-
  What the idealized reference computes, as the same function of the two input maps.

  The reference builds the layer numbers `z` (an iota over 384), broadcasts the two maps and its constants to the volume's
  shape, and selects: empty where `z ≥ h`; below the height the id, and for a footprint id `s + 0` where `z < 0` (never),
  `s + 1` where `z ≥ h - 1`. Read at an index, operation by operation (the generated read-at-an-index lemmas), every broadcast
  lands on the voxel's own column and layer, and the nest of selections is `rvox` of Spec.lean: the result is `vol`.
-/
import proofs.«429698_j91216515432457_3_alg».proof.Proof.Gen.ReferenceIdeal.Read
import proofs.«429698_j91216515432457_3_alg».proof.Proof.Spec
import Idealize.ShloMosaic.Lib.ValueIdx

noncomputable section

namespace Cert.ReferenceIdeal.Volume

open Cert.ReferenceIdeal Cert.ReferenceIdeal.Gen Cert.ReferenceIdeal.Read
open Idealize.ShloMosaic Idealize.ShloMosaic.ValueIdx
open Cert.Extrude

variable {F : FTy → Type} [FloatOps F]

/-- The reference's last stage is the volume of its two arguments. -/
theorem result_is_vol (x0 x1 : (⟨S1x768x768, .i32⟩ : BufTy).Contents (Elt F)) :
    val_main_v26 (F := F) x0 x1 = vol x0 x1 := by
  funext j
  -- every broadcast of a map reads the voxel's column
  have c1 : idx_main_v2 (idx_main_v23 j) = col j := funext fun a => match a with | ⟨0, _⟩ => rfl | ⟨1, _⟩ => rfl | ⟨2, _⟩ => rfl
  have c2 : idx_main_v2 (idx_main_v16 j) = col j := funext fun a => match a with | ⟨0, _⟩ => rfl | ⟨1, _⟩ => rfl | ⟨2, _⟩ => rfl
  have c3 : idx_main_v3 (idx_main_call2_v0 j) = col j := funext fun a => match a with | ⟨0, _⟩ => rfl | ⟨1, _⟩ => rfl | ⟨2, _⟩ => rfl
  have c4 : idx_main_v3 (idx_main_call1_v1 j) = col j := funext fun a => match a with | ⟨0, _⟩ => rfl | ⟨1, _⟩ => rfl | ⟨2, _⟩ => rfl
  have c5 : idx_main_v3 (idx_main_call0_v0 j) = col j := funext fun a => match a with | ⟨0, _⟩ => rfl | ⟨1, _⟩ => rfl | ⟨2, _⟩ => rfl
  have c6 : idx_main_v3 (idx_main_call0_v1 j) = col j := funext fun a => match a with | ⟨0, _⟩ => rfl | ⟨1, _⟩ => rfl | ⟨2, _⟩ => rfl
  have c7 : idx_main_v3 (idx_main_call2_v1 j) = col j := funext fun a => match a with | ⟨0, _⟩ => rfl | ⟨1, _⟩ => rfl | ⟨2, _⟩ => rfl
  rw [val_main_v26_apply, val_main_v24_apply, val_main_v25_apply, val_main_call3_v1_apply, val_main_call3_v0_apply, val_main_c_5_apply,
    val_main_v22_apply, val_main_v23_apply, val_main_call2_v0_apply, val_main_v21_apply, val_main_call2_v1_apply,
    val_main_v8_apply, val_main_v5_apply, val_main_v7_apply, val_main_v4_apply, val_main_v6_apply, val_main_c_apply, val_main_c_0_apply,
    val_main_call1_v0_apply, val_main_call1_v1_apply, val_main_v20_apply, val_main_v10_apply, val_main_v9_apply, val_main_c_1_apply,
    val_main_v12_apply, val_main_v11_apply, val_main_c_2_apply, val_main_v17_apply, val_main_call0_v0_apply, val_main_call0_v1_apply,
    val_main_v15_apply, val_main_v16_apply, val_main_v14_apply, val_main_v13_apply, val_main_c_3_apply, val_main_v19_apply,
    val_main_v18_apply, val_main_c_4_apply]
  simp only [val_main_v1_apply, val_main_v0_apply, val_main_v2_apply, val_main_v3_apply, c1, c2, c3, c4, c5, c6, c7]
  rfl

end Cert.ReferenceIdeal.Volume

end
-- ==== Proof.PreDecode.lean ====
/-
  The precondition, read: the printed predicate is `jnp.all(height_field >= 0)` — a compare of the height map with a broadcast
  zero, reduced by `and` over all three axes into a scalar. If that scalar is 1, the compare is 1 at every index: every height is
  non-negative as a signed word.
-/
import proofs.«429698_j91216515432457_3_alg».proof.Pre_any_inputs
import Idealize.ShloMosaic.Lib.ReduceAll
import Idealize.ShloMosaic.Lib.ValueIdx
import Idealize.ShloMosaic.Lib.StableHlo.Predicate

noncomputable section

namespace Cert.Pre_any_inputs.Decode

open Cert.Pre_any_inputs Idealize.ShloMosaic

instance : Subsingleton S_.Idx := ⟨fun a b => funext fun d => d.elim0⟩

/-- Under the precondition every height is non-negative. -/
theorem heights_nonneg {F : FTy → Type} [FloatOps F] [Facts] (hf seg : IVec S1x768x768 32)
    (h : fn (F := F) hf seg = fun _ => 1#1) (i : S1x768x768.Idx) : (0#32).sle (hf i) = true := by
  have e := congrFun h ValueIdx.ix0
  dsimp only [fn] at e
  have hi := Host.reduce_andi_all _ _ _ _ _ e i
  exact (StableHlo.Predicate.ofBool_eq_one_iff _).mp hi

end Cert.Pre_any_inputs.Decode

end
-- ==== Proof.lean ====
/-
  The extrusion of a height map and an id map into a voxel volume: the tiled kernel against the reference, over 32-bit words.

  Both programs compute, for every column `(h, w)` with height `hf` and id `seg` and every layer `z < 384`, the voxel
  `rvox z hf seg` of Proof/Spec.lean: 0 at and above the height, the id below it, and `seg + 1` on the topmost layer of a
  footprint id. The reference does so directly (Proof/RefValue.lean). The kernel walks the layer axis in 32 tiles of 12 rows and
  compares the row number with the height less the tile's first layer; that subtraction is exact, and the kernel's voxel is the
  reference's, when the height is not negative (Proof/Spec.lean `kvox_eq_rvox`; near the least word it wraps and the two
  differ). The statement's precondition says every height is non-negative (Proof/PreDecode.lean reads it), and under it the
  kernel's twelve stores per tile, then the 32 tiles, fill the volume with `vol` (Proof/KernelValue.lean).

  All values are integers, so the idealization rewrote nothing (`preserves` is `True`) and "equal as extended reals" is
  equality of words. The three frames are the programs' runs with the results dropped.
-/
import proofs.«429698_j91216515432457_3_alg».proof.Defs
import proofs.«429698_j91216515432457_3_alg».proof.Proof.Gen.Kernel
import proofs.«429698_j91216515432457_3_alg».proof.Proof.Gen.KernelIdeal
import proofs.«429698_j91216515432457_3_alg».proof.Proof.Gen.ReferenceIdeal
import proofs.«429698_j91216515432457_3_alg».proof.Proof.Gen.Pre_any_inputs
import proofs.«429698_j91216515432457_3_alg».proof.Proof.Gen.ReferenceIdeal.Run
import proofs.«429698_j91216515432457_3_alg».proof.Proof.Gen.ReferenceIdeal.Read
import proofs.«429698_j91216515432457_3_alg».proof.Proof.KernelFrameP
import proofs.«429698_j91216515432457_3_alg».proof.Proof.KernelIdealFrameP
import proofs.«429698_j91216515432457_3_alg».proof.Proof.KernelValue
import proofs.«429698_j91216515432457_3_alg».proof.Proof.RefValue
import proofs.«429698_j91216515432457_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves the two maps as they were. -/
theorem frame_kernel : Cert.frame_Kernel := fun m ρ _ => Cert.Kernel.GenP.frame m ρ

/-- So does the kernel read over the extended reals (its values are integers: the same text). -/
theorem frame_kernelIdeal : Cert.frame_KernelIdeal := fun m ρ _ => Cert.KernelIdeal.GenP.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two maps, every height non-negative, both programs end with the volume `vol` of the maps:
    the kernel tile by tile (Proof/KernelValue.lean), the reference operation by operation (Proof/RefValue.lean). -/
theorem algebraic : Cert.algebraic_KernelIdeal_ReferenceIdeal := by
  intro m ρ m' ρ' hpre hagree
  have hpos : ∀ (c : Dev Cert.KernelIdeal.nD) y,
      (0#32).sle (m ((c : Thread Cert.KernelIdeal.nD Cert.KernelIdeal.τ).loc Cert.KernelIdeal.main_arg0) y) = true :=
    fun c y => Cert.Pre_any_inputs.Decode.heights_nonneg (F := Ideal) _ _ (hpre c) y
  refine ⟨_, Cert.KernelIdeal.Volume.run (F := Ideal) m ρ hpos, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.Volume.result_is_vol, (hagree c).1, (hagree c).2]

theorem claim : Cert.Claim :=
  ⟨Cert.Kernel.Gen.facts, Cert.KernelIdeal.Gen.facts, Cert.ReferenceIdeal.Gen.facts, Cert.Pre_any_inputs.Gen.facts,
    frame_kernel, frame_kernelIdeal, frame_referenceIdeal, preserves, algebraic⟩

end Cert.Proof

end
